-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S30 : Shape := ⟨1, ![30]⟩
abbrev S4096x30 : Shape := ⟨2, ![4096, 30]⟩
abbrev S512x2048 : Shape := ⟨2, ![512, 2048]⟩
abbrev S512x30 : Shape := ⟨2, ![512, 30]⟩
abbrev S512 : Shape := ⟨1, ![512]⟩
abbrev S512x1 : Shape := ⟨2, ![512, 1]⟩
abbrev S_ : Shape := ⟨0, ![]⟩
abbrev S30x1 : Shape := ⟨2, ![30, 1]⟩

abbrev nBuf : Space → Nat
  | .hbm => 10
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S30, .i32⟩
  | .hbm, ⟨2, _⟩ => ⟨S30, .i1⟩
  | .hbm, ⟨3, _⟩ => ⟨S4096x30, .f32⟩
  | .hbm, ⟨4, _⟩ => ⟨S_, .i32⟩
  | .hbm, ⟨5, _⟩ => ⟨S30, .i32⟩
  | .hbm, ⟨6, _⟩ => ⟨S30, .i32⟩
  | .hbm, ⟨7, _⟩ => ⟨S30, .i32⟩
  | .hbm, ⟨8, _⟩ => ⟨S30x1, .i32⟩
  | .hbm, ⟨9, _⟩ => ⟨S4096x30, .f32⟩
  | .local _ .vmem, ⟨0, _⟩ => ⟨S512x2048, .f32⟩
  | .local _ .vmem, ⟨1, _⟩ => ⟨S512x2048, .f32⟩
  | .local _ .vmem, ⟨2, _⟩ => ⟨S512x30, .f32⟩
  | .local _ .vmem, ⟨3, _⟩ => ⟨S512x30, .f32⟩
  | .local _ .vmem, ⟨4, _⟩ => ⟨S512x30, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32_41 : BitVec 32 := 7#32
  let v202 : BitVec 1 := Scalar.cmpi .eq arg1 c7_i32_41
  let v203 : BitVec 32 := Scalar.extui v202
  let c0_i32_42 : BitVec 32 := 0#32
  let v204 : BitVec 1 := Scalar.cmpi .ne v203 c0_i32_42
  v204

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x30_S512x30_0_0 : ∀ a, (![0, 0] : Fin 2 → Nat) a + S512x30.size a ≤ S512x30.size a
  h_S512x30 : 0 < S512x30.numel
  shapeCasts_S512x30_S512x30 : S512x30.ShapeCasts S512x30
  inb_S512x2048_S512x2048_0_0 : ∀ a, (![0, 0] : Fin 2 → Nat) a + S512x2048.size a ≤ S512x2048.size a
  h_S512x2048 : 0 < S512x2048.numel
  natLt_1_32 : 1 < 32
  reduces_S512x2048_S512 : S512x2048.Reduces [1] S512
  shapeCasts_S512_S512x1 : S512.ShapeCasts S512x1
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x30_d1 : Shape.Concatenates [S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1, S512x1] S512x30 1
  bcast_S_S30 : S_.BroadcastsInDim S30 (![] : Fin 0 → Fin S30.rank)
  bcast_S30_S30x1_0 : S30.BroadcastsInDim S30x1 (![0] : Fin 1 → Fin S30x1.rank)
  gather_S4096x30_S30x1_S4096x30_0_1_n_n_1_1_40961_wf : GatherDims.WF S4096x30 S30x1 S4096x30 [0] [1] [] [1] [] 1 ![4096, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x30.size a ≤ S4096x30.size a
  hwx0_1 : ∀ i : grid0.Coords, EltTy.bits .f32 = 32 ∨ (Rect.block (s := S4096x30) S512x30.size (cc0_transform_1 i) (hinb0_1 i)).WholeWords (EltTy.packing .f32)

variable [Facts₀]

def gather_S4096x30_S30x1_S4096x30_0_1_n_n_1_1_40961 : GatherDims S4096x30 S30x1 S4096x30 where
  offsetDims := [0]
  collapsedSliceDims := [1]
  operandBatchingDims := []
  startIndicesBatchingDims := []
  startIndexMap := [1]
  indexVectorDim := 1
  sliceSizes := ![4096, 1]
  wf := gather_S4096x30_S30x1_S4096x30_0_1_n_n_1_1_40961_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x30.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x16384 : Shape := ⟨2, ![4096, 16384]⟩
abbrev S30 : Shape := ⟨1, ![30]⟩
abbrev S_ : Shape := ⟨0, ![]⟩
abbrev S4096 : Shape := ⟨1, ![4096]⟩
abbrev S4096x1 : Shape := ⟨2, ![4096, 1]⟩
abbrev S4096x30 : Shape := ⟨2, ![4096, 30]⟩
abbrev S4096x16384x1 : Shape := ⟨3, ![4096, 16384, 1]⟩
abbrev S4096x16384x2 : Shape := ⟨3, ![4096, 16384, 2]⟩
abbrev S30x1 : Shape := ⟨2, ![30, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S30, .i32⟩
  | .hbm, ⟨2, _⟩ => ⟨S30, .i1⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S4096x16384, .i32⟩
  | .hbm, ⟨19, _⟩ => ⟨S_, .i32⟩
  | .hbm, ⟨20, _⟩ => ⟨S4096x16384, .i32⟩
  | .hbm, ⟨21, _⟩ => ⟨S4096x16384, .i32⟩
  | .hbm, ⟨22, _⟩ => ⟨S4096, .i32⟩
  | .hbm, ⟨23, _⟩ => ⟨S4096x1, .i32⟩
  | .hbm, ⟨24, _⟩ => ⟨S_, .f32⟩
  | .hbm, ⟨25, _⟩ => ⟨S4096x30, .f32⟩
  | .hbm, ⟨26, _⟩ => ⟨S_, .i32⟩
  | .hbm, ⟨27, _⟩ => ⟨S4096x1, .i32⟩
  | .hbm, ⟨28, _⟩ => ⟨S4096x1, .i1⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x1, .i32⟩
  | .hbm, ⟨33, _⟩ => ⟨S_, .i32⟩
  | .hbm, ⟨34, _⟩ => ⟨S4096x16384, .i32⟩
  | .hbm, ⟨35, _⟩ => ⟨S4096x16384, .i1⟩
  | .hbm, ⟨36, _⟩ => ⟨S_, .i32⟩
  | .hbm, ⟨37, _⟩ => ⟨S4096x16384, .i32⟩
  | .hbm, ⟨38, _⟩ => ⟨S4096x16384, .i32⟩
  | .hbm, ⟨39, _⟩ => ⟨S4096x16384, .i32⟩
  | .hbm, ⟨40, _⟩ => ⟨S4096x16384, .i32⟩
  | .hbm, ⟨41, _⟩ => ⟨S4096x16384x1, .i32⟩
  | .hbm, ⟨42, _⟩ => ⟨S4096x16384x1, .i32⟩
  | .hbm, ⟨43, _⟩ => ⟨S4096x16384x2, .i32⟩
  | .hbm, ⟨44, _⟩ => ⟨S_, .f32⟩
  | .hbm, ⟨45, _⟩ => ⟨S4096x16384, .f32⟩
  | .hbm, ⟨46, _⟩ => ⟨S4096x30, .f32⟩
  | .hbm, ⟨47, _⟩ => ⟨S_, .i32⟩
  | .hbm, ⟨48, _⟩ => ⟨S30, .i32⟩
  | .hbm, ⟨49, _⟩ => ⟨S30, .i32⟩
  | .hbm, ⟨50, _⟩ => ⟨S30, .i32⟩
  | .hbm, ⟨51, _⟩ => ⟨S30x1, .i32⟩
  | .hbm, ⟨52, _⟩ => ⟨S4096x30, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_c_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_c_7 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_8 : Ref sig .tc := ⟨.hbm, 33, rfl⟩
abbrev main_v17 : Ref sig .tc := ⟨.hbm, 34, rfl⟩
abbrev main_v18 : Ref sig .tc := ⟨.hbm, 35, rfl⟩
abbrev main_c_9 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  bcast_S4096_S4096x1_0 : S4096.BroadcastsInDim S4096x1 (![0] : Fin 1 → Fin S4096x1.rank)
  bcast_S_S4096x30 : S_.BroadcastsInDim S4096x30 (![] : Fin 0 → Fin S4096x30.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S4096x16384_S4096x16384x1_0_1 : S4096x16384.BroadcastsInDim S4096x16384x1 (![0, 1] : Fin 2 → Fin S4096x16384x1.rank)
  concatenates_S4096x16384x1_S4096x16384x1_S4096x16384x2_d2 : Shape.Concatenates [S4096x16384x1, S4096x16384x1] S4096x16384x2 2
  bcast_S_S30 : S_.BroadcastsInDim S30 (![] : Fin 0 → Fin S30.rank)
  bcast_S30_S30x1_0 : S30.BroadcastsInDim S30x1 (![0] : Fin 1 → Fin S30x1.rank)
  scatter_S4096x30_S4096x16384x2_S4096x16384_n_01_01_2_wf : ScatterDims.WF S4096x30 S4096x16384x2 S4096x16384 [] [0, 1] [0, 1] 2
  gather_S4096x30_S30x1_S4096x30_0_1_n_n_1_1_40961_wf : GatherDims.WF S4096x30 S30x1 S4096x30 [0] [1] [] [1] [] 1 ![4096, 1]

variable [Facts₀]

def scatter_S4096x30_S4096x16384x2_S4096x16384_n_01_01_2 : ScatterDims S4096x30 S4096x16384x2 S4096x16384 where
  updateWindowDims := []
  insertedWindowDims := [0, 1]
  scatterDimsToOperandDims := [0, 1]
  indexVectorDim := 2
  wf := scatter_S4096x30_S4096x16384x2_S4096x16384_n_01_01_2_wf
def gather_S4096x30_S30x1_S4096x30_0_1_n_n_1_1_40961 : GatherDims S4096x30 S30x1 S4096x30 where
  offsetDims := [0]
  collapsedSliceDims := [1]
  operandBatchingDims := []
  startIndicesBatchingDims := []
  startIndexMap := [1]
  indexVectorDim := 1
  sliceSizes := ![4096, 1]
  wf := gather_S4096x30_S30x1_S4096x30_0_1_n_n_1_1_40961_wf

class Facts : Prop extends Facts₀ where

variable [Facts]
-- ==== Proof.TileDef.lean ====
/-
  One tile's contribution to the histogram.

  At a grid point the kernel body turns the [512, 2048] block of samples into a [512, 30] block of counts: column b
  holds, for each of the 512 rows, how many of the row's 2048 samples in this tile have bin word b. The body computes
  the thirty columns one after the other and concatenates them; this is that composition, named once.
-/
import proofs.«145623_j81965155877403_1_alg».proof.Proof.Gen.KernelIdeal.Skeleton

noncomputable section

namespace Cert.KernelIdeal.Hand

open Idealize.ShloMosaic Cert.KernelIdeal Cert.KernelIdeal.Gen

variable {F : FTy → Type} [FloatOps F]

/-- The counts block of one tile of samples: the thirty per-bin column sums, side by side. -/
def tile (xb : Vec F S512x2048 .f32) : FVec F S512x30 .f32 :=
  k0_pay1 (k0_pay4 xb) (k0_pay5 xb) (k0_pay6 xb) (k0_pay7 xb) (k0_pay8 xb) (k0_pay9 (k0_pay4 xb)) (k0_pay10 (k0_pay4 xb)) (k0_pay11 (k0_pay4 xb)) (k0_pay12 (k0_pay4 xb)) (k0_pay13 (k0_pay4 xb)) (k0_pay14 (k0_pay4 xb)) (k0_pay15 (k0_pay4 xb)) (k0_pay17 (k0_pay16 (k0_pay4 xb))) (k0_pay18 (k0_pay4 xb)) (k0_pay19 (k0_pay4 xb)) (k0_pay20 (k0_pay4 xb)) (k0_pay21 (k0_pay4 xb)) (k0_pay22 (k0_pay4 xb)) (k0_pay23 (k0_pay4 xb)) (k0_pay24 (k0_pay4 xb)) (k0_pay25 (k0_pay4 xb)) (k0_pay26 (k0_pay4 xb)) (k0_pay27 (k0_pay4 xb)) (k0_pay28 (k0_pay4 xb)) (k0_pay29 (k0_pay4 xb)) (k0_pay30 (k0_pay4 xb)) (k0_pay31 (k0_pay4 xb)) (k0_pay32 (k0_pay4 xb))

end Cert.KernelIdeal.Hand

end
-- ==== Proof.Pieces.lean ====
/-
  What the kernel body leaves in the accumulator and in the output block, case by case.

  The body adds the tile's counts block to the accumulator: at the first tile of a row block over the zero block it has
  just stored, at every later tile over what the tile before left. At the last tile of a row block the output block is
  the accumulator's new contents.
-/
import proofs.«145623_j81965155877403_1_alg».proof.Proof.Gen.KernelIdeal.Frame
import proofs.«145623_j81965155877403_1_alg».proof.Proof.TileDef
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]

/-- A block read or stored at the origin of a buffer of its own shape: both offsets are zero. -/
private theorem origin_offsets_zero : (![0, 0] : Fin 2 → Nat) = fun _ => 0 := funext fun a => by fin_cases a <;> rfl

/-- First tile of a row block: the accumulator ends at the zero block plus the tile's counts. -/
theorem sout_A (c : Dev nD) (i : grid0.Coords) (arg2 : Memref sig .tc .vmem S512x2048 .f32) (harg2 : arg2.IsWhole) (arg3 : Memref sig .tc .vmem S512x30 .f32) (harg3 : arg3.IsWhole) (arg4 : Memref sig .tc .vmem S512x30 .f32) (harg4 : arg4.IsWhole) (hc0 : cond0_0 i) (hc1 : ¬cond0_1 i) (x0 : Vec F S512x2048 .f32) :
    sout0_A_0 c i arg2 harg2 arg3 harg3 arg4 harg4 hc0 hc1 x0 = k0_pay2 (tile x0) (k0_pay3 (F := F)) := by
  -- Two covering stores into the accumulator, the later one on top: the reset block, then the sum; the sum's second
  -- operand is the accumulator read back after the reset, which is the reset block.
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S512x30) origin_offsets_zero, View.readCov_unit_zero (S := S512x30) _ origin_offsets_zero]
  simp only [View.readAt_eq_ld, harg2.read_unread, View.ld_unit_zero (S := S512x2048) origin_offsets_zero]
  rfl

/-- A middle tile: the accumulator ends at what the tile before left plus the tile's counts. -/
theorem sout_B (c : Dev nD) (i : grid0.Coords) (arg2 : Memref sig .tc .vmem S512x2048 .f32) (harg2 : arg2.IsWhole) (arg3 : Memref sig .tc .vmem S512x30 .f32) (harg3 : arg3.IsWhole) (arg4 : Memref sig .tc .vmem S512x30 .f32) (harg4 : arg4.IsWhole) (hc0 : ¬cond0_0 i) (hc1 : ¬cond0_1 i) (x0 : Vec F S512x2048 .f32) (xs0 : Vec F S512x30 .f32) :
    sout0_B_0 c i arg2 harg2 arg3 harg3 arg4 harg4 hc0 hc1 x0 xs0 = k0_pay2 (tile x0) xs0 := by
  -- One covering store into the accumulator: the sum of what the whole accumulator held and the counts of the whole
  -- samples block.
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero origin_offsets_zero]
  simp only [View.readAt_eq_ld, harg2.read_unread, harg4.read_unread, View.ld_unit_zero (S := S512x2048) origin_offsets_zero,
    View.ld_unit_zero (S := S512x30) origin_offsets_zero]
  rfl

/-- The last tile of a row block: the accumulator ends at what the tile before left plus the tile's counts, -/
theorem sout_C (c : Dev nD) (i : grid0.Coords) (arg2 : Memref sig .tc .vmem S512x2048 .f32) (harg2 : arg2.IsWhole) (arg3 : Memref sig .tc .vmem S512x30 .f32) (harg3 : arg3.IsWhole) (arg4 : Memref sig .tc .vmem S512x30 .f32) (harg4 : arg4.IsWhole) (hc0 : ¬cond0_0 i) (hc1 : cond0_1 i) (x0 : Vec F S512x2048 .f32) (xs0 : Vec F S512x30 .f32) :
    sout0_C_0 c i arg2 harg2 arg3 harg3 arg4 harg4 hc0 hc1 x0 xs0 = k0_pay2 (tile x0) xs0 := by
  -- One covering store into the accumulator: the sum of what the whole accumulator held and the counts of the whole
  -- samples block.
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero origin_offsets_zero]
  simp only [View.readAt_eq_ld, harg2.read_unread, harg4.read_unread, View.ld_unit_zero (S := S512x2048) origin_offsets_zero,
    View.ld_unit_zero (S := S512x30) origin_offsets_zero]
  rfl

/-- and the output block is that same sum. -/
theorem out_C (c : Dev nD) (i : grid0.Coords) (arg2 : Memref sig .tc .vmem S512x2048 .f32) (harg2 : arg2.IsWhole) (arg3 : Memref sig .tc .vmem S512x30 .f32) (harg3 : arg3.IsWhole) (arg4 : Memref sig .tc .vmem S512x30 .f32) (harg4 : arg4.IsWhole) (hc0 : ¬cond0_0 i) (hc1 : cond0_1 i) (x0 : Vec F S512x2048 .f32) (xs0 : Vec F S512x30 .f32) :
    out0_C_1 c i arg2 harg2 arg3 harg3 arg4 harg4 hc0 hc1 x0 xs0 = k0_pay2 (tile x0) xs0 := by
  -- One covering store into the output block: the whole accumulator read back after its covering store of the sum.
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero origin_offsets_zero]
  simp only [View.readCov_unit_zero (S := S512x30) _ origin_offsets_zero, View.readAt_eq_ld, harg2.read_unread, harg4.read_unread,
    View.ld_unit_zero (S := S512x2048) origin_offsets_zero, View.ld_unit_zero (S := S512x30) origin_offsets_zero]
  rfl

/-- The accumulator's update at an index, on the extended reals: old entry plus the tile's entry. -/
theorem pay2_apply (v196 : FVec Ideal S512x30 .f32) (v197 : Vec Ideal S512x30 .f32) (j : S512x30.Idx) :
    k0_pay2 (F := Ideal) v196 v197 j = v197 j + v196 j := by
  -- A cast to the same shape changes nothing; the sum is entrywise.
  exact (congrFun (shapeCast_self (addf v197 v196) shapeCasts_S512x30_S512x30) j).trans (addf_apply v197 v196 j)

/-- The reset block is zero everywhere. -/
theorem pay3_apply (j : S512x30.Idx) : k0_pay3 (F := Ideal) j = 0 := by
  -- A cast to the same shape changes nothing; every entry of the splat is the word of +0.0, the real 0.
  exact (congrFun (shapeCast_self (broadcast S512x30 (Scalar.ofBits (F := Ideal) .f32 0x00000000#32)) shapeCasts_S512x30_S512x30) j).trans
    Ideal.ofBits_zero_f32

end Cert.KernelIdeal.Hand

end
-- ==== Proof.Spec.lean ====
/-
  The histogram both programs compute, as mathematics over the extended reals.

  Every sample x is sent to a bin word: the quotient (x + 6) / w is floored, clamped into [-1, 28], converted to a
  32-bit integer and shifted by one, so the word lies in [0, 29] whatever x is (the clamp absorbs the infinities).
  Entry (r, b) of the histogram in natural bin order counts the samples of row r whose bin word is b: a sum of zeros
  and ones over the 16384 columns. The constants are kept as the bit patterns both programs spell.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

/-- The sample array's shape and the histogram's. -/
abbrev SX : Shape := ⟨2, ![4096, 16384]⟩
abbrev SH : Shape := ⟨2, ![4096, 30]⟩

/-- The clamped, floored quotient of one sample: min(28, max(-1, ⌊(x - (-6)) / w⌋)) on the extended reals. -/
def clamped (x : EReal) : EReal :=
  min (Ideal.ofBits .f32 0x41E00000#32) (max (Ideal.ofBits .f32 0xBF800000#32)
    (Ideal.liftRound Int.floor (Ideal.div (x - Ideal.ofBits .f32 0xC0C00000#32) (Ideal.ofBits .f32 0x3EDB6DB7#32))))

/-- The bin word of one sample: the clamped quotient as an integer, plus one. -/
def binWord (x : EReal) : BitVec 32 := IntOp.addi (Ideal.fptosi 32 (clamped x)) 1#32

/-- One sample's contribution to bin `b`: one when its bin word is `b`, zero otherwise. -/
def hit (x : EReal) (b : BitVec 32) : EReal := if binWord x = b then 1 else 0

/-- The histogram in natural bin order: entry (r, b) counts row r's samples whose bin word is b. -/
def hist (x : SX.Idx → EReal) : SH.Idx → EReal :=
  fun i => ∑ c : Fin 16384, hit (x (ix2 (i 0) c)) (BitVec.ofNat 32 (i 1).val)

/-! ## The constants' values -/

theorem ofBits_28 : Ideal.ofBits .f32 0x41E00000#32 = ((28 : ℝ) : EReal) := by
  simp [Ideal.ofBits, Ideal.ieee, -EReal.coe_mul]; norm_num

theorem ofBits_neg1 : Ideal.ofBits .f32 0xBF800000#32 = ((-1 : ℝ) : EReal) := by
  simp [Ideal.ofBits, Ideal.ieee, -EReal.coe_mul]; norm_num

theorem ofBits_1 : Ideal.ofBits .f32 0x3F800000#32 = 1 := by
  simp [Ideal.ofBits, Ideal.ieee, -EReal.coe_mul]; norm_num

theorem ofBits_0 : Ideal.ofBits .f32 0x00000000#32 = 0 := Ideal.ofBits_zero_f32

/-- The integer 28 converted to a float is the literal 28.0: the reference's upper clamp bound is the kernel's. -/
theorem sitofp_28 : (((28#32 : BitVec 32).toInt : ℝ) : EReal) = Ideal.ofBits .f32 0x41E00000#32 := by
  have h : (28#32 : BitVec 32).toInt = 28 := by decide
  rw [h, ofBits_28]; norm_num

/-! ## The bin word's range -/

/-- The clamped quotient is a real number between -1 and 28. -/
theorem clamped_real (x : EReal) : ∃ r : ℝ, clamped x = (r : EReal) ∧ -1 ≤ r ∧ r ≤ 28 := by
  unfold clamped
  rw [ofBits_28, ofBits_neg1]
  generalize Ideal.liftRound Int.floor (Ideal.div (x - Ideal.ofBits .f32 0xC0C00000#32) (Ideal.ofBits .f32 0x3EDB6DB7#32)) = y
  induction y using EReal.rec with
  | bot => exact ⟨-1, by rw [max_eq_left bot_le, min_eq_right]; exact_mod_cast (by norm_num : (-1 : ℝ) ≤ 28), le_refl _, by norm_num⟩
  | top => exact ⟨28, by simp, by norm_num, le_refl _⟩
  | coe r =>
    refine ⟨min 28 (max (-1) r), ?_, ?_, min_le_left _ _⟩
    · rw [EReal.coe_strictMono.monotone.map_min, EReal.coe_strictMono.monotone.map_max]
    · exact le_min (by norm_num) (le_max_left _ _)

/-- The bin word is one of 0, …, 29: as a signed integer it lies in [0, 30). -/
theorem binWord_range (x : EReal) : 0 ≤ (binWord x).toInt ∧ (binWord x).toInt < 30 := by
  obtain ⟨r, hr, h1, h2⟩ := clamped_real x
  unfold binWord
  rw [hr, Ideal.fptosi, Ideal.toIntClamped_coe]
  have hf1 : (-1 : ℤ) ≤ ⌊r⌋ := Int.le_floor.mpr (by exact_mod_cast h1)
  have hf2 : ⌊r⌋ ≤ (28 : ℤ) := by exact_mod_cast le_trans (Int.floor_le r) h2
  have hc1 : (-1 : ℤ) ≤ ⌈r⌉ := by exact_mod_cast le_trans h1 (Int.le_ceil r)
  have hc2 : ⌈r⌉ ≤ (28 : ℤ) := Int.ceil_le.mpr (by exact_mod_cast h2)
  generalize hz : (if 0 ≤ r then ⌊r⌋ else ⌈r⌉) = z
  have hz1 : -1 ≤ z := by rw [← hz]; split_ifs <;> assumption
  have hz2 : z ≤ 28 := by rw [← hz]; split_ifs <;> assumption
  have e : max (-((2 ^ (32 - 1) : ℕ) : ℤ)) (min (((2 ^ (32 - 1) : ℕ) : ℤ) - 1) z) = z := by
    norm_num; omega
  rw [e]
  simp only [IntOp.addi, BitVec.toInt_add, BitVec.toInt_ofInt]
  have h1' : (1#32 : BitVec 32).toInt = 1 := by decide
  rw [h1']
  simp only [Int.bmod]
  norm_num
  omega

end Cert.Hist

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.Tile.lean ====
/-
  One tile's counts block read at an index: entry (p, b) is the number of samples among the 2048 of row p of the tile
  whose bin word is b — a sum of zeros and ones.

  The block is thirty columns side by side. Column b compares every bin word of the tile with b, reads the comparison
  bit as the number one or zero, sums each row, and stands the 512 row sums up as a column. So the block at (p, b) is
  column b at row p, which is the sum over the row of the indicator "the bin word is b".
-/
import proofs.«145623_j81965155877403_1_alg».proof.Proof.TileDef
import proofs.«145623_j81965155877403_1_alg».proof.Proof.Spec
import proofs.«145623_j81965155877403_1_alg».proof.Proof.LibColumns

noncomputable section

namespace Cert.KernelIdeal.Hand

open Idealize.ShloMosaic Idealize.ShloMosaic.ValueIdx Cert.KernelIdeal Cert.KernelIdeal.Gen

/-- The bin-word array of a tile reads, at each index, the bin word of the sample there. -/
theorem binWords_apply (xb : Vec Ideal S512x2048 .f32) (j : S512x2048.Idx) :
    k0_pay4 (F := Ideal) xb j = Cert.Hist.binWord (xb j) := rfl

/-- The bit of "k = b", widened to a 32-bit word and read as a signed integer, is the number one when k = b and zero
    otherwise. -/
theorem eqBit_toReal (k b : BitVec 32) :
    ((((IntOp.cmpi .eq k b).setWidth 32).toInt : ℝ) : EReal) = if k = b then 1 else 0 := by
  by_cases h : k = b
  · subst h
    simp [IntOp.cmpi]
  · have hb : (k == b) = false := by simpa using h
    simp [IntOp.cmpi, h, hb]

/-- One bin's column of counts: compare the words with the bin, widen the bit, convert it to a number, sum each row, and
    stand the row sums up as a column. -/
def col (v : IVec S512x2048 32) (b : BitVec 32) : FVec Ideal S512x1 .f32 :=
  shapeCast S512x1 (multiReduction (F := Ideal) .add [1] S512 (sitofp .f32 (extui 32 (cmpi .eq v (broadcast S512x2048 b)) natLt_1_32))
    0x00000000#32 reduces_S512x2048_S512 (.inl rfl) rfl) shapeCasts_S512_S512x1

/-- A column at row p counts the row's words equal to the bin. -/
theorem col_apply (v : IVec S512x2048 32) (b : BitVec 32) (p : Fin 512) (u : Fin 1) :
    col v b (ix2 p u) = ∑ c : Fin 2048, if v (ix2 p c) = b then (1 : EReal) else 0 := by
  refine (Cert.LibColumns.shapeCast_a_a1_apply _ _ p u).trans ?_
  refine (Cert.LibColumns.rowSum_apply _ _ _ _ _ p).trans ?_
  exact Finset.sum_congr rfl fun c _ => eqBit_toReal _ _

/-- The thirty columns in bin order: column n is the column of the bin whose word is n. -/
def cols (v : IVec S512x2048 32) (n : Fin 30) : FVec Ideal S512x1 .f32 := col v (BitVec.ofNat 32 n.val)

/-- A tile's block is the thirty columns of its bin words, side by side: each of the body's thirty pieces unfolds to the
    column of its bin. -/
theorem tile_eq_concat (xb : Vec Ideal S512x2048 .f32) :
    tile (F := Ideal) xb = concatenate S512x30 1
      (List.ofFn fun n : Fin 30 => (⟨S512x1, cols (k0_pay4 (F := Ideal) xb) n⟩ : (s : Shape) × (s.Idx → EReal)))
      concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x30_d1 := rfl

/-- Entry (p, b) of a tile's counts block: the row's samples with bin word b, counted. -/
theorem tile_apply (xb : Vec Ideal S512x2048 .f32) (p : Fin 512) (q : Fin 30) :
    tile (F := Ideal) xb (ix2 p q) = ∑ c : Fin 2048, Cert.Hist.hit (xb (ix2 p c)) (BitVec.ofNat 32 q.val) := by
  rw [tile_eq_concat]
  -- thirty pieces of extent one along axis 1: the entry at (p, q) is piece q read at (p, 0)
  refine (concatenate_ofFn_unit_apply (t := S512x30) (s₁ := S512x1) (1 : Fin 2) (cols (k0_pay4 (F := Ideal) xb)) _ rfl rfl
    (ix2 p q) q rfl (ix2 p (0 : Fin 1)) ?_).trans ?_
  · intro b hb
    fin_cases b
    · rfl
    · exact absurd rfl hb
  · -- the summand "the bin word is q" is the sample's contribution to bin q
    exact col_apply _ _ p 0

end Cert.KernelIdeal.Hand

end
-- ==== Proof.CountMath.lean ====
/-
  Counting a row's samples tile by tile.

  The histogram entry (r, b) is a sum over the row's 16384 columns. The kernel meets the columns in eight tiles of
  2048; the count over the first k + 1 tiles is the count over the first k plus the (k + 1)-th tile's own count, and
  the count over all eight is the histogram entry.
-/
import proofs.«145623_j81965155877403_1_alg».proof.Proof.Spec

noncomputable section

namespace Cert.Hist

open Idealize.ShloMosaic Idealize.ShloMosaic.ValueIdx

/-- Column `c` of row `rr` counted for the word `b` (zero outside the array). -/
def colHit (x : SX.Idx → EReal) (rr : ℕ) (b : BitVec 32) (c : ℕ) : EReal :=
  if h : rr < 4096 ∧ c < 16384 then hit (x (ix2 ⟨rr, h.1⟩ ⟨c, h.2⟩)) b else 0

/-- The count over the row's first `n` columns. -/
def partialCount (x : SX.Idx → EReal) (rr : ℕ) (b : BitVec 32) (n : ℕ) : EReal :=
  ∑ c ∈ Finset.range n, colHit x rr b c

theorem partialCount_zero (x : SX.Idx → EReal) (rr : ℕ) (b : BitVec 32) : partialCount x rr b 0 = 0 :=
  Finset.sum_range_zero _

/-- One more tile: the count over k + 1 tiles is the count over k tiles plus the new tile's count. -/
theorem partialCount_add (x : SX.Idx → EReal) (rr : ℕ) (b : BitVec 32) (k : ℕ) (hk : k < 8) (hr : rr < 4096) :
    partialCount x rr b (2048 * (k + 1))
      = partialCount x rr b (2048 * k)
        + ∑ c' : Fin 2048, hit (x (ix2 ⟨rr, hr⟩ ⟨2048 * k + c'.val, by have := c'.isLt; omega⟩)) b := by
  unfold partialCount
  rw [show 2048 * (k + 1) = 2048 * k + 2048 by ring, Finset.sum_range_add]
  congr 1
  rw [Finset.sum_range]
  refine Finset.sum_congr rfl fun c' _ => ?_
  unfold colHit
  rw [dif_pos ⟨hr, by have := c'.isLt; omega⟩]

/-- All eight tiles: the histogram entry. -/
theorem partialCount_full (x : SX.Idx → EReal) (r : Fin 4096) (q : Fin 30) :
    partialCount x r.val (BitVec.ofNat 32 q.val) 16384 = hist x (ix2 r q) := by
  unfold partialCount hist
  rw [Finset.sum_range]
  refine Finset.sum_congr rfl fun c _ => ?_
  unfold colHit
  rw [dif_pos ⟨r.isLt, c.isLt⟩]

end Cert.Hist

end
-- ==== Proof.Accum.lean ====
/-
  The kernel's output array after the region: the histogram in natural bin order.

  The grid is 8 row blocks by 8 column tiles, walked row block by row block. Within a row block the accumulator holds,
  after tile k, the counts of the row's first 2048 (k + 1) columns: the first tile starts from the zero block, every
  later tile adds its own counts to what the tile before left (an induction over the grid points). After the eighth tile
  the accumulator holds the whole row's counts, and that is the block written back; the eight written blocks tile the
  [4096, 30] output array.
-/
import proofs.«145623_j81965155877403_1_alg».proof.Proof.Gen.KernelIdeal.Frame
import proofs.«145623_j81965155877403_1_alg».proof.Proof.Pieces
import proofs.«145623_j81965155877403_1_alg».proof.Proof.Tile
import proofs.«145623_j81965155877403_1_alg».proof.Proof.CountMath
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Hist

variable (m : (ℓ : Loc nD τ sig) → Buf (Elt Ideal) ℓ)

/-- The sample array as the region finds it, and the tile of samples the body reads at grid point `t`. -/
abbrev xarr (c : Dev nD) : Vec Ideal S4096x16384 .f32 := V m c main_arg0
abbrev xblk (c : Dev nD) (t : Fin cfg0.N) : Vec Ideal S512x2048 .f32 := iblk m c 0 t

/-- Grid point t sits in row block t / 8 and column tile t % 8; the output block moves with the row block only. -/
theorem idx_in : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx_out : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

theorem N64 : cfg0.N = 64 := N_0

/-- The tile at point t reads the sample array at rows 512 (t / 8) + p and columns 2048 (t % 8) + cc. -/
theorem xblk_apply (c : Dev nD) (t : Fin cfg0.N) (p : Fin 512) (cc : Fin 2048) (rr k : ℕ) (hrr : rr = 512 * (t.val / 8) + p.val)
    (hk : k = t.val % 8) (h1 : rr < 4096) (h2 : 2048 * k + cc.val < 16384) :
    xblk m c t (ix2 p cc) = xarr m c (ix2 ⟨rr, h1⟩ ⟨2048 * k + cc.val, h2⟩) := by
  obtain ⟨e0, e1⟩ := idx_in t
  show iblk m c 0 t (ix2 p cc) = _
  unfold iblk
  rw [View.read_apply]
  show V m c main_arg0 _ = V m c main_arg0 _
  congr 1
  funext a; apply Fin.ext
  match a with
  | ⟨0, _⟩ => show win0_0.index t (0 : Fin 2) * 512 + 1 * p.val = rr; rw [e0]; omega
  | ⟨1, _⟩ => show win0_0.index t (1 : Fin 2) * 2048 + 1 * cc.val = 2048 * k + cc.val; rw [e1]; omega

/-- The accumulator after a first tile: the zero block plus the tile's counts. -/
theorem acc_first (c : Dev nD) (t : Fin cfg0.N) (h0 : t.val % 8 = 0) :
    (outsAt0 m c t.val t.isLt).2 = k0_pay2 (tile (xblk m c t)) (k0_pay3 (F := Ideal)) := by
  have h1 : ¬t.val % 8 = 7 := by omega
  rw [outsAt0_A m c t h0 h1]
  dsimp only
  exact sout_A (F := Ideal) c (grid0.coords t) (ms0_0 t) (hs0_0 t) (ms0_1 t) (hs0_1 t) scM0_0 (Memref.isWhole_whole _)
    ((hcond0_0 t).mpr h0) (fun h => h1 ((hcond0_1 t).mp h)) (iblk m c 0 t)

/-- The accumulator after a later tile: what the tile before left plus the tile's counts. -/
theorem acc_next (c : Dev nD) (t : Fin cfg0.N) (h0 : ¬t.val % 8 = 0) :
    (outsAt0 m c t.val t.isLt).2
      = k0_pay2 (tile (xblk m c t)) (outsAt0 m c (t.val - 1) (Nat.lt_of_le_of_lt (Nat.sub_le _ _) t.isLt)).2 := by
  by_cases h1 : t.val % 8 = 7
  · rw [outsAt0_C m c t h0 h1]
    dsimp only
    exact sout_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t)
      (outsAt0 m c (t.val - 1) (Nat.lt_of_le_of_lt (Nat.sub_le _ _) t.isLt)).2

/-- At a row block's last tile the output block is the accumulator's new contents. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).trans
    (sout_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).symm

/-- One tile's counts, over the sample array: row 512 (t / 8) + p, columns 2048 (t % 8) + c'. -/
theorem tile_count (c : Dev nD) (t : Fin cfg0.N) (p : Fin 512) (q : Fin 30) (rr k : ℕ) (hrr : rr = 512 * (t.val / 8) + p.val)
    (hk : k = t.val % 8) (h1 : rr < 4096) (h2 : k < 8) :
    tile (F := Ideal) (xblk m c t) (ix2 p q)
      = ∑ c' : Fin 2048, hit (xarr m c (ix2 ⟨rr, h1⟩ ⟨2048 * k + c'.val, by have := c'.isLt; omega⟩)) (BitVec.ofNat 32 q.val) := by
  rw [tile_apply]
  refine Finset.sum_congr rfl fun c' _ => ?_
  rw [xblk_apply m c t p c' rr k hrr hk h1 (by have := c'.isLt; omega)]

/-- After a row block's first tile the accumulator holds the counts of the row's first 2048 columns. -/
theorem acc_step_first (c : Dev nD) (t : Fin cfg0.N) (h0 : t.val % 8 = 0) (p : Fin 512) (q : Fin 30) (rr : ℕ)
    (hrr : rr = 512 * (t.val / 8) + p.val) (h1 : rr < 4096) :
    (outsAt0 m c t.val t.isLt).2 (ix2 p q) = partialCount (xarr m c) rr (BitVec.ofNat 32 q.val) (2048 * (0 + 1)) := by
  rw [acc_first m c t h0, pay2_apply, pay3_apply, zero_add, tile_count m c t p q rr 0 hrr h0.symm h1 (by omega)]
  have e := partialCount_add (xarr m c) rr (BitVec.ofNat 32 q.val) 0 (by omega) h1
  have z : partialCount (xarr m c) rr (BitVec.ofNat 32 q.val) (2048 * 0) = 0 := partialCount_zero _ _ _
  rw [z] at e
  exact (zero_add _).symm.trans e.symm

/-- After a later tile k the accumulator holds the counts of the row's first 2048 (k + 1) columns, if after the tile
    before it held those of the first 2048 k. -/
theorem acc_step_next (c : Dev nD) (t : Fin cfg0.N) (h0 : ¬t.val % 8 = 0) (p : Fin 512) (q : Fin 30) (rr k : ℕ)
    (hrr : rr = 512 * (t.val / 8) + p.val) (hk : k = t.val % 8) (h1 : rr < 4096) (h2 : k < 8)
    (prev : (outsAt0 m c (t.val - 1) (Nat.lt_of_le_of_lt (Nat.sub_le _ _) t.isLt)).2 (ix2 p q)
      = partialCount (xarr m c) rr (BitVec.ofNat 32 q.val) (2048 * k)) :
    (outsAt0 m c t.val t.isLt).2 (ix2 p q) = partialCount (xarr m c) rr (BitVec.ofNat 32 q.val) (2048 * (k + 1)) := by
  rw [acc_next m c t h0, pay2_apply, prev, tile_count m c t p q rr k hrr hk h1 h2]
  exact (partialCount_add (xarr m c) rr (BitVec.ofNat 32 q.val) k h2 h1).symm

/-- THE INVARIANT: after grid point n the accumulator holds, at (p, b), the count of row 512 (n / 8) + p over the first
    2048 (n % 8 + 1) columns. -/
theorem acc_eq (c : Dev nD) : ∀ (n : ℕ) (h : n < cfg0.N) (p : Fin 512) (q : Fin 30),
    (outsAt0 m c n h).2 (ix2 p q)
      = partialCount (xarr m c) (512 * (n / 8) + p.val) (BitVec.ofNat 32 q.val) (2048 * (n % 8 + 1)) := by
  intro n
  induction n with
  | zero =>
    intro h p q
    have hp := p.isLt
    exact acc_step_first m c ⟨0, h⟩ rfl p q (512 * (0 / 8) + p.val) rfl (by omega)
  | succ n ih =>
    intro h p q
    have hN : n + 1 < 64 := lt_of_lt_of_eq h N64
    have hp := p.isLt
    by_cases h0 : (n + 1) % 8 = 0
    · rw [h0]
      exact acc_step_first m c ⟨n + 1, h⟩ h0 p q (512 * ((n + 1) / 8) + p.val) rfl (by omega)
    · have e1 : (n + 1) / 8 = n / 8 := by omega
      have e2 : (n + 1) % 8 = n % 8 + 1 := by omega
      refine acc_step_next m c ⟨n + 1, h⟩ h0 p q (512 * ((n + 1) / 8) + p.val) ((n + 1) % 8) rfl rfl (by omega) (by omega) ?_
      rw [e1, e2]
      exact ih (Nat.lt_of_succ_lt h) p q

/-- What a row block's last point writes back: the block of the histogram at the block's rows. -/
theorem out_block (c : Dev nD) (t : Fin cfg0.N) (h7 : t.val % 8 = 7) (p : Fin 512) (q : Fin 30) (rr : ℕ)
    (hrr : rr = 512 * (t.val / 8) + p.val) (h1 : rr < 4096) :
    (outsAt0 m c t.val t.isLt).1 (ix2 p q) = hist (xarr m c) (ix2 ⟨rr, h1⟩ q) := by
  rw [out_last m c t h7, acc_eq m c t.val t.isLt p q, h7, ← hrr]
  exact partialCount_full (xarr m c) ⟨rr, h1⟩ q

/-- The same at any index of the block. -/
theorem out_block' (c : Dev nD) (t : Fin cfg0.N) (h7 : t.val % 8 = 7) (y : S512x30.Idx) (rr : ℕ)
    (hrr : rr = 512 * (t.val / 8) + (y 0).val) (h1 : rr < 4096) :
    (outsAt0 m c t.val t.isLt).1 y = hist (xarr m c) (ix2 ⟨rr, h1⟩ (y 1)) := by
  exact (congrArg (outsAt0 m c t.val t.isLt).1 (eq_ix2 y)).trans (out_block m c t h7 (y 0) (y 1) rr hrr h1)

set_option maxRecDepth 65536 in
/-- WHAT POINT t WRITES BACK is block t of the histogram of the sample array. -/
theorem flushed_eq (c : Dev nD) (t : Fin cfg0.N) (hf : (cfg0.win 1).flush t = true) :
    (dats m 0 c).flushed 1 t = ((cfg0.win 1).blk t).view.read (Elt Ideal) (hist (xarr m c)) := by
  have h7 : t.val % 8 = 7 := (flush0_1 t).mp hf
  have hN : t.val < 64 := lt_of_lt_of_eq t.isLt N64
  obtain ⟨e0, e1⟩ := idx_out t
  show (cfg0.win 1).cut (grid0.coords t) ((dats m 0 c).after 1 t) = _
  rw [after0_1]
  funext j
  have hj0 : (j 0).val < 512 := (j 0).isLt
  have hj1 : (j 1).val < 30 := (j 1).isLt
  show (outsAt0 m c t.val t.isLt).1 ((cfg0.win 1).xinj (grid0.coords t) j)
    = hist (xarr m c) (((cfg0.win 1).blk t).view.emb j)
  rw [out_block' m c t h7 ((cfg0.win 1).xinj (grid0.coords t) j) (512 * (t.val / 8) + (j 0).val) rfl (by omega)]
  congr 1
  funext a; apply Fin.ext
  match a with
  | ⟨0, _⟩ => show 512 * (t.val / 8) + (j 0).val = win0_1.index t (0 : Fin 2) * 512 + 1 * (j 0).val; rw [e0]; omega
  | ⟨1, _⟩ => show (j 1).val = win0_1.index t (1 : Fin 2) * 30 + 1 * (j 1).val; rw [e1]; omega

/-- An index of the output array is in point t's block iff each coordinate is in the block's range on its axis. -/
theorem mem_blk (t : Fin cfg0.N) (i : S4096x30.Idx) :
    i ∈ ((cfg0.win 1).blk t).view.set ↔ ∀ a : Fin 2, win0_1.index t a * S512x30.size a ≤ (i a).val ∧ (i a).val < win0_1.index t a * S512x30.size a + S512x30.size a := by
  show i ∈ ((View.whole main_v0).slice (win0_1.rect t)).set ↔ _
  rw [View.set_slice_whole, Rect.mem_set_unit]
  exact Iff.rfl

/-- Every entry of the output array lies in the block some row block's last point writes back. -/
theorem cover (i : S4096x30.Idx) : ∃ t : Fin cfg0.N, (cfg0.win 1).flush t = true ∧ i ∈ ((cfg0.win 1).blk t).view.set := by
  have hi0 : (i 0).val < 4096 := (i 0).isLt
  have hi1 : (i 1).val < 30 := (i 1).isLt
  have ht : 8 * ((i 0).val / 512) + 7 < cfg0.N := by rw [N64]; omega
  refine ⟨⟨8 * ((i 0).val / 512) + 7, ht⟩, (flush0_1 _).mpr (by show (8 * ((i 0).val / 512) + 7) % 8 = 7; omega), ?_⟩
  rw [mem_blk]
  obtain ⟨e0, e1⟩ := idx_out ⟨8 * ((i 0).val / 512) + 7, ht⟩
  intro a
  match a with
  | ⟨0, _⟩ =>
    show win0_1.index _ (0 : Fin 2) * 512 ≤ (i 0).val ∧ (i 0).val < win0_1.index _ (0 : Fin 2) * 512 + 512
    rw [e0]; show (8 * ((i 0).val / 512) + 7) / 8 * 512 ≤ (i 0).val ∧ (i 0).val < (8 * ((i 0).val / 512) + 7) / 8 * 512 + 512
    omega
  | ⟨1, _⟩ =>
    show win0_1.index _ (1 : Fin 2) * 30 ≤ (i 1).val ∧ (i 1).val < win0_1.index _ (1 : Fin 2) * 30 + 30
    rw [e1]; omega

/-- THE OUTPUT ARRAY after the region: the histogram, in natural bin order, of the sample array. -/
theorem final (c : Dev nD) : (dats m 0 c).arrAt 1 cfg0.N = hist (xarr m c) :=
  (dats m 0 c).arrAt_eq_of_cover 1 (hist (xarr m c)) (flushed_eq m c) cover

end Cert.KernelIdeal.Hand

end
-- ==== Proof.KernelRun.lean ====
/-
  The kernel program's run, read: its result is the fixed column permutation of the histogram of its argument.

  After the region the program permutes the output array's columns by a constant table (a gather along the bin axis);
  the table is computed from two constants that the lines before the region wrote and the region left alone.
-/
import proofs.«145623_j81965155877403_1_alg».proof.Proof.Accum
import Idealize.ShloMosaic.Lib.StableHlo.Run

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Hist

variable (m : (ℓ : Loc nD τ sig) → Buf (Elt Ideal) ℓ) (ρ : Dev nD → PrngReg)

/-- The column table of the final permutation, as gather start indices. -/
def order : IVec S30x1 32 :=
  broadcastInDim S30x1 ![0] Gen.bcast_S30_S30x1_0
    (select (constantI S30 1 0#1)
      (addi (fun i => lit0 (S30.rowMajor i)) (broadcastInDim S30 ![] Gen.bcast_S_S30 (constantI S_ 32 30#32)))
      (fun i => lit0 (S30.rowMajor i)))

/-- The final permutation of the histogram's columns. -/
def reorder (y : FVec Ideal S4096x30 .f32) : FVec Ideal S4096x30 .f32 :=
  Host.gather gather_S4096x30_S30x1_S4096x30_0_1_n_n_1_1_40961 y order

/-- The table's two constants are as the lines before the region wrote them. -/
theorem table_kept (c : Dev nD) (A : (w : Fin cfg0.W) → Buf (Elt Ideal) ((spec0 w).arr.view.loc (c.tc : Thread nD τ))) :
    Pipeline.withArrays spec0 c (V0 m c) A (Proc.devRef .tc main_c) = (fun i => lit0 (S30.rowMajor i))
    ∧ Pipeline.withArrays spec0 c (V0 m c) A (Proc.devRef .tc main_c_0) = constantI S30 1 0#1 := by
  constructor
  · rw [Pipeline.withArrays_of_ne spec0 c _ _ main_c (fun w => by fin_cases w <;> decide)]
    show StableHlo.after hostOps0 (fun b => m (c, b)) (Proc.devRef .tc main_c) = _
    after_results
    rfl
  · rw [Pipeline.withArrays_of_ne spec0 c _ _ main_c_0 (fun w => by fin_cases w <;> decide)]
    show StableHlo.after hostOps0 (fun b => m (c, b)) (Proc.devRef .tc main_c_0) = _
    after_results

/-- The lines after the region leave the result at the permuted histogram of the sample array. -/
theorem tail_eq (c : Dev nD) :
    Pipeline.afterTail₀ cfgs (dats m) 0 (V0 m) [hostOps1] c main_v5 = reorder (hist (xarr m c)) := by
  unfold Pipeline.afterTail₀
  show StableHlo.after hostOps1 _ (Proc.devRef .tc main_v5) = _
  after_results
  have hv0 : Pipeline.withArrays (cfgs 0).spec c (V0 m c) (fun w => (dats m 0 c).arrAt w (cfgs 0).N) (Proc.devRef .tc main_v0)
      = hist (xarr m c) :=
    (Pipeline.withArrays_arr spec0 launch0.win.arr_inj c _ _ 1).trans (final m c)
  obtain ⟨hc, hc0⟩ := table_kept m c (fun w => (dats m 0 c).arrAt w (cfgs 0).N)
  rw [hv0, hc, hc0]
  rfl

/-- From any memory with zero counters every weakly fair execution of the kernel program terminates with its result at
    the permuted histogram of the argument's launch contents and the argument unchanged. -/
theorem run : θ_run (defs (F := Ideal)) (onTc (τ := τ) (main (F := Ideal))) ⟨m, fun _ => 0, ρ⟩ fun r => ∀ c : Dev nD,
      r.2.mem ((c.tc : Thread nD τ).loc main_v5) = reorder (hist (m ((c.tc : Thread nD τ).loc main_arg0)))
      ∧ r.2.mem ((c.tc : Thread nD τ).loc main_arg0) = m ((c.tc : Thread nD τ).loc main_arg0) :=
  (θ_run defs _ _).mono (fun r h c =>
    ⟨((h c).2 main_v5 (Pipeline.mem_restRefs_of main_v5 rfl (fun w => by fin_cases w <;> decide))).trans
        ((tail_eq m c).trans (by rw [show xarr m c = m ((c.tc : Thread nD τ).loc main_arg0) from V_main_arg0 m c])),
      ((h c).1 0).trans (((dats m 0 c).arrAt_in 0 rfl _).trans ((A_eq m c 0).trans (V_main_arg0 m c)))⟩)
    (run_main m ρ)

end Cert.KernelIdeal.Hand

end
-- ==== Proof.RefDefs.lean ====
/-
  The reference's result as one term of its argument.

  The reference computes every sample's bin word (shift by 6, divide by the bin width, floor, clamp between -1 and 28,
  convert to an integer, add one), pairs it with the sample's row number into a two-component scatter index, adds a one
  at that index of a zero [4096, 30] array for every sample, and finally permutes the columns by a fixed table. Each
  stage is named here in the order the program computes it.
-/
import proofs.«145623_j81965155877403_1_alg».proof.ReferenceIdeal
import proofs.«145623_j81965155877403_1_alg».proof.Proof.Gen.ReferenceIdeal

noncomputable section

namespace Cert.ReferenceIdeal.Hand

open Idealize.ShloMosaic Cert.ReferenceIdeal Cert.ReferenceIdeal.Facts₀

variable {F : FTy → Type} [FloatOps F]

/-- Every sample's bin word: floor((x - (-6)) / w) clamped into [-1, 28], as an integer, plus one. -/
def binArr (x : FVec F S4096x16384 .f32) : IVec S4096x16384 32 :=
  addi (fptosi 32
      (minimumf (broadcastInDim S4096x16384 ![] bcast_S_S4096x16384 (sitofp .f32 (constantI S_ 32 28#32)))
        (maximumf (broadcastInDim S4096x16384 ![] bcast_S_S4096x16384 (id (constant S_ .f32 0xBF800000#32)))
          (Host.floor (Host.divf
            (subf x (broadcastInDim S4096x16384 ![] bcast_S_S4096x16384 (constant S_ .f32 0xC0C00000#32)))
            (broadcastInDim S4096x16384 ![] bcast_S_S4096x16384 (constant S_ .f32 0x3EDB6DB7#32)))))))
    (broadcastInDim S4096x16384 ![] bcast_S_S4096x16384 (constantI S_ 32 1#32))

/-- The row numbers 0, …, 4095 as a column. -/
def rowCol : IVec S4096x1 32 := broadcastInDim S4096x1 ![0] bcast_S4096_S4096x1_0 (iotaInDim S4096 32 0)

/-- The row component of the scatter index: a negative row number would wrap by 4096 (none is negative). -/
def rowIdx : IVec S4096x1 32 :=
  select (cmpi .slt rowCol (broadcastInDim S4096x1 ![] bcast_S_S4096x1 (constantI S_ 32 0#32)))
    (addi rowCol (broadcastInDim S4096x1 ![] bcast_S_S4096x1 (constantI S_ 32 4096#32))) rowCol

/-- The bin component of the scatter index: a negative bin word would wrap by 30. -/
def binIdx (x : FVec F S4096x16384 .f32) : IVec S4096x16384 32 :=
  select (cmpi .slt (binArr x) (broadcastInDim S4096x16384 ![] bcast_S_S4096x16384 (constantI S_ 32 0#32)))
    (addi (binArr x) (broadcastInDim S4096x16384 ![] bcast_S_S4096x16384 (constantI S_ 32 30#32))) (binArr x)

/-- The scatter indices: per sample the pair (row, bin). -/
def scatIdx (x : FVec F S4096x16384 .f32) : IVec S4096x16384x2 32 :=
  concatenate S4096x16384x2 2
    [⟨S4096x16384x1, broadcastInDim S4096x16384x1 ![0, 1] bcast_S4096x16384_S4096x16384x1_0_1
        (broadcastInDim S4096x16384 ![0, 1] bcast_S4096x1_S4096x16384_0_1 rowIdx)⟩,
     ⟨S4096x16384x1, broadcastInDim S4096x16384x1 ![0, 1] bcast_S4096x16384_S4096x16384x1_0_1 (binIdx x)⟩]
    concatenates_S4096x16384x1_S4096x16384x1_S4096x16384x2_d2

/-- The histogram in natural bin order: ones added into a zero array at the samples' (row, bin) indices. -/
def scat (x : FVec F S4096x16384 .f32) : FVec F S4096x30 .f32 :=
  Host.scatterAdd scatter_S4096x30_S4096x16384x2_S4096x16384_n_01_01_2
    (broadcastInDim S4096x30 ![] bcast_S_S4096x30 (constant S_ .f32 0x00000000#32))
    (scatIdx x)
    (broadcastInDim S4096x16384 ![] bcast_S_S4096x16384 (constant S_ .f32 0x3F800000#32))

/-- The column table of the final permutation, as gather start indices. -/
def order : IVec S30x1 32 :=
  broadcastInDim S30x1 ![0] bcast_S30_S30x1_0
    (select (constantI S30 1 0#1)
      (addi (fun i => lit0 (S30.rowMajor i)) (broadcastInDim S30 ![] bcast_S_S30 (constantI S_ 32 30#32)))
      (fun i => lit0 (S30.rowMajor i)))

/-- The final permutation of the histogram's columns. -/
def reorder (y : FVec F S4096x30 .f32) : FVec F S4096x30 .f32 :=
  Host.gather gather_S4096x30_S30x1_S4096x30_0_1_n_n_1_1_40961 y order

end Cert.ReferenceIdeal.Hand

end
-- ==== Proof.RefRun.lean ====
/-
  The reference's run: every execution of its straight-line host program ends with the result buffer at the permuted
  scatter-sum of the argument and the argument unchanged.
-/
import proofs.«145623_j81965155877403_1_alg».proof.Proof.RefDefs
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Facts₀

variable {F : FTy → Type} [FloatOps F]

/-- The program's fifty-two operations in order: eleven up to the floor of the scaled samples, the clamp's six at its
    call site (the lower bound converted to its own type and broadcast, the maximum, the upper bound converted to a
    float and broadcast, the minimum), then the thirty-five that build the scatter indices, scatter and permute. -/
abbrev ops : List (HloOp τ sig (Elt F)) :=
  [
    nullary main_c (fun i => lit0 (S30.rowMajor i)),
    nullary main_c_0 (constantI S30 1 0#1),
    nullary main_cst (constant S_ .f32 0xC0C00000#32),
    unary main_cst main_v0 (broadcastInDim S4096x16384 ![] bcast_S_S4096x16384 : (⟨S_, .f32⟩ : BufTy).Contents (Elt F) → (⟨S4096x16384, .f32⟩ : BufTy).Contents (Elt F)),
    binary main_arg0 main_v0 main_v1 (subf : (⟨S4096x16384, .f32⟩ : BufTy).Contents (Elt F) → (⟨S4096x16384, .f32⟩ : BufTy).Contents (Elt F) → (⟨S4096x16384, .f32⟩ : BufTy).Contents (Elt F)),
    nullary main_cst_1 (constant S_ .f32 0x3EDB6DB7#32),
    unary main_cst_1 main_v2 (broadcastInDim S4096x16384 ![] bcast_S_S4096x16384 : (⟨S_, .f32⟩ : BufTy).Contents (Elt F) → (⟨S4096x16384, .f32⟩ : BufTy).Contents (Elt F)),
    binary main_v1 main_v2 main_v3 (Host.divf : (⟨S4096x16384, .f32⟩ : BufTy).Contents (Elt F) → (⟨S4096x16384, .f32⟩ : BufTy).Contents (Elt F) → (⟨S4096x16384, .f32⟩ : BufTy).Contents (Elt F)),
    unary main_v3 main_v4 (Host.floor : (⟨S4096x16384, .f32⟩ : BufTy).Contents (Elt F) → (⟨S4096x16384, .f32⟩ : BufTy).Contents (Elt F)),
    nullary main_cst_2 (constant S_ .f32 0xBF800000#32),
    nullary main_c_3 (constantI S_ 32 28#32),
    TRef.unary (.of main_cst_2 : TRef sig ⟨S_, .f32⟩) main_call0.v0 id,
    TRef.unary main_call0.v0 main_call0.v1 (broadcastInDim S4096x16384 ![] bcast_S_S4096x16384),
    TRef.binary main_call0.v1 (.of main_v4 : TRef sig ⟨S4096x16384, .f32⟩) main_call0.v2 maximumf,
    TRef.unary (.of main_c_3 : TRef sig ⟨S_, .i32⟩) main_call0.v3 (sitofp .f32),
    TRef.unary main_call0.v3 main_call0.v4 (broadcastInDim S4096x16384 ![] bcast_S_S4096x16384),
    TRef.binary main_call0.v4 main_call0.v2 main_call0.v5 minimumf,
    unary main_v5 main_v6 (fptosi 32 : (⟨S4096x16384, .f32⟩ : BufTy).Contents (Elt F) → (⟨S4096x16384, .i32⟩ : BufTy).Contents (Elt F)),
    nullary main_c_4 (constantI S_ 32 1#32),
    unary main_c_4 main_v7 (broadcastInDim S4096x16384 ![] bcast_S_S4096x16384 : (⟨S_, .i32⟩ : BufTy).Contents (Elt F) → (⟨S4096x16384, .i32⟩ : BufTy).Contents (Elt F)),
    binary main_v6 main_v7 main_v8 (addi : (⟨S4096x16384, .i32⟩ : BufTy).Contents (Elt F) → (⟨S4096x16384, .i32⟩ : BufTy).Contents (Elt F) → (⟨S4096x16384, .i32⟩ : BufTy).Contents (Elt F)),
    nullary main_v9 (iotaInDim S4096 32 0),
    unary main_v9 main_v10 (broadcastInDim S4096x1 ![0] bcast_S4096_S4096x1_0 : (⟨S4096, .i32⟩ : BufTy).Contents (Elt F) → (⟨S4096x1, .i32⟩ : BufTy).Contents (Elt F)),
    nullary main_cst_5 (constant S_ .f32 0x00000000#32),
    unary main_cst_5 main_v11 (broadcastInDim S4096x30 ![] bcast_S_S4096x30 : (⟨S_, .f32⟩ : BufTy).Contents (Elt F) → (⟨S4096x30, .f32⟩ : BufTy).Contents (Elt F)),
    nullary main_c_6 (constantI S_ 32 0#32),
    unary main_c_6 main_v12 (broadcastInDim S4096x1 ![] bcast_S_S4096x1 : (⟨S_, .i32⟩ : BufTy).Contents (Elt F) → (⟨S4096x1, .i32⟩ : BufTy).Contents (Elt F)),
    binary main_v10 main_v12 main_v13 (cmpi .slt : (⟨S4096x1, .i32⟩ : BufTy).Contents (Elt F) → (⟨S4096x1, .i32⟩ : BufTy).Contents (Elt F) → (⟨S4096x1, .i1⟩ : BufTy).Contents (Elt F)),
    nullary main_c_7 (constantI S_ 32 4096#32),
    unary main_c_7 main_v14 (broadcastInDim S4096x1 ![] bcast_S_S4096x1 : (⟨S_, .i32⟩ : BufTy).Contents (Elt F) → (⟨S4096x1, .i32⟩ : BufTy).Contents (Elt F)),
    binary main_v10 main_v14 main_v15 (addi : (⟨S4096x1, .i32⟩ : BufTy).Contents (Elt F) → (⟨S4096x1, .i32⟩ : BufTy).Contents (Elt F) → (⟨S4096x1, .i32⟩ : BufTy).Contents (Elt F)),
    ternary main_v13 main_v15 main_v10 main_v16 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_8 (constantI S_ 32 0#32),
    unary main_c_8 main_v17 (broadcastInDim S4096x16384 ![] bcast_S_S4096x16384 : (⟨S_, .i32⟩ : BufTy).Contents (Elt F) → (⟨S4096x16384, .i32⟩ : BufTy).Contents (Elt F)),
    binary main_v8 main_v17 main_v18 (cmpi .slt : (⟨S4096x16384, .i32⟩ : BufTy).Contents (Elt F) → (⟨S4096x16384, .i32⟩ : BufTy).Contents (Elt F) → (⟨S4096x16384, .i1⟩ : BufTy).Contents (Elt F)),
    nullary main_c_9 (constantI S_ 32 30#32),
    unary main_c_9 main_v19 (broadcastInDim S4096x16384 ![] bcast_S_S4096x16384 : (⟨S_, .i32⟩ : BufTy).Contents (Elt F) → (⟨S4096x16384, .i32⟩ : BufTy).Contents (Elt F)),
    binary main_v8 main_v19 main_v20 (addi : (⟨S4096x16384, .i32⟩ : BufTy).Contents (Elt F) → (⟨S4096x16384, .i32⟩ : BufTy).Contents (Elt F) → (⟨S4096x16384, .i32⟩ : BufTy).Contents (Elt F)),
    ternary main_v18 main_v20 main_v8 main_v21 (select : (⟨S4096x16384, .i1⟩ : BufTy).Contents (Elt F) → (⟨S4096x16384, .i32⟩ : BufTy).Contents (Elt F) → (⟨S4096x16384, .i32⟩ : BufTy).Contents (Elt F) → (⟨S4096x16384, .i32⟩ : BufTy).Contents (Elt F)),
    unary main_v16 main_v22 (broadcastInDim S4096x16384 ![0, 1] bcast_S4096x1_S4096x16384_0_1 : (⟨S4096x1, .i32⟩ : BufTy).Contents (Elt F) → (⟨S4096x16384, .i32⟩ : BufTy).Contents (Elt F)),
    unary main_v22 main_v23 (broadcastInDim S4096x16384x1 ![0, 1] bcast_S4096x16384_S4096x16384x1_0_1 : (⟨S4096x16384, .i32⟩ : BufTy).Contents (Elt F) → (⟨S4096x16384x1, .i32⟩ : BufTy).Contents (Elt F)),
    unary main_v21 main_v24 (broadcastInDim S4096x16384x1 ![0, 1] bcast_S4096x16384_S4096x16384x1_0_1 : (⟨S4096x16384, .i32⟩ : BufTy).Contents (Elt F) → (⟨S4096x16384x1, .i32⟩ : BufTy).Contents (Elt F)),
    binary main_v23 main_v24 main_v25 ((fun a b => concatenate S4096x16384x2 2 [⟨S4096x16384x1, a⟩, ⟨S4096x16384x1, b⟩] concatenates_S4096x16384x1_S4096x16384x1_S4096x16384x2_d2) : (⟨S4096x16384x1, .i32⟩ : BufTy).Contents (Elt F) → (⟨S4096x16384x1, .i32⟩ : BufTy).Contents (Elt F) → (⟨S4096x16384x2, .i32⟩ : BufTy).Contents (Elt F)),
    nullary main_cst_10 (constant S_ .f32 0x3F800000#32),
    unary main_cst_10 main_v26 (broadcastInDim S4096x16384 ![] bcast_S_S4096x16384 : (⟨S_, .f32⟩ : BufTy).Contents (Elt F) → (⟨S4096x16384, .f32⟩ : BufTy).Contents (Elt F)),
    ternary main_v11 main_v25 main_v26 main_v27 ((fun x i u => Host.scatterAdd scatter_S4096x30_S4096x16384x2_S4096x16384_n_01_01_2 x i u) : (⟨S4096x30, .f32⟩ : BufTy).Contents (Elt F) → (⟨S4096x16384x2, .i32⟩ : BufTy).Contents (Elt F) → (⟨S4096x16384, .f32⟩ : BufTy).Contents (Elt F) → (⟨S4096x30, .f32⟩ : BufTy).Contents (Elt F)),
    nullary main_c_11 (constantI S_ 32 30#32),
    unary main_c_11 main_v28 (broadcastInDim S30 ![] bcast_S_S30 : (⟨S_, .i32⟩ : BufTy).Contents (Elt F) → (⟨S30, .i32⟩ : BufTy).Contents (Elt F)),
    binary main_c main_v28 main_v29 (addi : (⟨S30, .i32⟩ : BufTy).Contents (Elt F) → (⟨S30, .i32⟩ : BufTy).Contents (Elt F) → (⟨S30, .i32⟩ : BufTy).Contents (Elt F)),
    ternary main_c_0 main_v29 main_c main_v30 (select : (⟨S30, .i1⟩ : BufTy).Contents (Elt F) → (⟨S30, .i32⟩ : BufTy).Contents (Elt F) → (⟨S30, .i32⟩ : BufTy).Contents (Elt F) → (⟨S30, .i32⟩ : BufTy).Contents (Elt F)),
    unary main_v30 main_v31 (broadcastInDim S30x1 ![0] bcast_S30_S30x1_0 : (⟨S30, .i32⟩ : BufTy).Contents (Elt F) → (⟨S30x1, .i32⟩ : BufTy).Contents (Elt F)),
    binary main_v27 main_v31 main_v32 ((fun x i => Host.gather gather_S4096x30_S30x1_S4096x30_0_1_n_n_1_1_40961 x i) : (⟨S4096x30, .f32⟩ : BufTy).Contents (Elt F) → (⟨S30x1, .i32⟩ : BufTy).Contents (Elt F) → (⟨S4096x30, .f32⟩ : BufTy).Contents (Elt F)) ]

-- fifty-two sequencing steps re-associated, one level of recursion per step
set_option maxRecDepth 2048 in
/-- The program is that straight line: the clamp's definition unfolded at its call and the call's record at its fields,
    both sides are one chain of steps once sequencing is re-associated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., nullary_bufs_sub .., nullary_bufs_sub .., unary_bufs_sub .., binary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    nullary_bufs_sub .., unary_bufs_sub .., binary_bufs_sub .., nullary_bufs_sub .., unary_bufs_sub .., nullary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    binary_bufs_sub .., nullary_bufs_sub .., unary_bufs_sub .., ternary_bufs_sub .., nullary_bufs_sub .., unary_bufs_sub ..,
    binary_bufs_sub .., ternary_bufs_sub .., unary_bufs_sub .., binary_bufs_sub ..⟩

attribute [local irreducible] Host.gather Host.scatterAdd Host.floor Host.divf concatenate broadcastInDim in
set_option maxRecDepth 8192 in
set_option maxHeartbeats 1000000 in
/-- The fold of the operations at the result buffer is the permuted scatter-sum of the argument's contents: each
    operation's result decides whether the buffer read is the one it writes, each stage's definition is the
    operation's function applied to the earlier stages, and the clamp's typed references' casts are the identity at
    these literal references; all of it by computation. The gather, the scatter-sum, the floor, the quotient, the
    concatenation and the broadcasts are kept folded meanwhile: the equation never looks inside them. -/
theorem out_eq (V : Valuation τ sig (Elt F)) :
    after ops V (main_v32 : DevRef τ sig) = reorder (scat (V (main_arg0 : DevRef τ sig))) := by
  simp only [after_cons, after_nil]
  rfl

/-- No operation writes the argument. -/
theorem arg0_eq (V : Valuation τ sig (Elt F)) :
    after ops V (main_arg0 : DevRef τ sig) = V (main_arg0 : DevRef τ sig) := by
  after_results

/-- From any memory with zero counters every weakly fair execution of the reference terminates with its result at
    the permuted scatter-sum of the argument's launch contents and the argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v32) = reorder (scat (m ((c.tc : Thread nD τ).loc main_arg0)))
      ∧ r.2.mem ((c.tc : Thread nD τ).loc main_arg0) = m ((c.tc : Thread nD τ).loc main_arg0) :=
  (θ_run defs _ _).mono (fun _ h c => ⟨(h c main_v32).trans (out_eq _), (h c main_arg0).trans (arg0_eq _)⟩)
    (run_seq scopedRefs_eq scopedSems_eq defs main (fun _ => ops) main_eq (fun _ => ops_sub) m ρ)

end Cert.ReferenceIdeal.Hand

end
-- ==== Proof.RefIdx.lean ====
/-
  The reference's scatter indices read componentwise: sample (r, c) is sent to row r and to the bin its bin word names.
  No wrap-around happens: the row number and the bin word are never negative.
-/
import proofs.«145623_j81965155877403_1_alg».proof.Proof.RefDefs
import proofs.«145623_j81965155877403_1_alg».proof.Proof.Spec
import Idealize.ShloMosaic.Lib.Pipeline.Value
import Idealize.ShloMosaic.Lib.ValueLayout

noncomputable section

namespace Cert.ReferenceIdeal.Hand

open Idealize.ShloMosaic Idealize.ShloMosaic.ValueIdx Cert.ReferenceIdeal Cert.ReferenceIdeal.Facts₀

/-- The reference's bin word of a sample is the specification's. -/
theorem binArr_apply (x : FVec Ideal S4096x16384 .f32) (j : S4096x16384.Idx) :
    binArr (F := Ideal) x j = Cert.Hist.binWord (x j) := by
  unfold binArr Cert.Hist.binWord Cert.Hist.clamped
  rw [← Cert.Hist.sitofp_28]
  rfl

/-- A word that is not negative as a signed integer does not compare below zero. -/
theorem cmpi_slt_zero_of_nonneg (w : BitVec 32) (h : 0 ≤ w.toInt) : IntOp.cmpi .slt w 0#32 = 0#1 := by
  have h0 : (0#32 : BitVec 32).toInt = 0 := by decide
  have : w.slt 0#32 = false := by
    rw [BitVec.slt, h0]; exact decide_eq_false (by omega)
  simp only [IntOp.cmpi, this]; rfl

/-- A row number below 4096 is itself as a signed 32-bit word. -/
theorem toInt_ofNat_row (r : Fin 4096) : (BitVec.ofNat 32 r.val).toInt = (r.val : ℤ) := by
  have hr := r.isLt
  rw [BitVec.toInt_eq_toNat_of_lt (by rw [BitVec.toNat_ofNat]; omega), BitVec.toNat_ofNat]
  congr 1; omega

/-- The column of row numbers reads the row number. -/
theorem rowCol_apply (r : Fin 4096) : rowCol (ix2 r (0 : Fin 1)) = BitVec.ofNat 32 r.val := by
  unfold rowCol
  rw [broadcastInDim_apply ![0] bcast_S4096_S4096x1_0 _ (ix2 r (0 : Fin 1)) (ix1 r)
    (fun a => match a with | ⟨0, _⟩ => rfl)]
  rfl

/-- The row component is the row number: no row number is negative, so nothing wraps. -/
theorem rowIdx_apply (r : Fin 4096) : rowIdx (ix2 r (0 : Fin 1)) = BitVec.ofNat 32 r.val := by
  unfold rowIdx
  rw [select_apply]
  have hc : cmpi .slt rowCol (broadcastInDim S4096x1 ![] bcast_S_S4096x1 (constantI S_ 32 0#32)) (ix2 r (0 : Fin 1)) = 0#1 := by
    show IntOp.cmpi .slt (rowCol (ix2 r (0 : Fin 1))) 0#32 = 0#1
    rw [rowCol_apply]
    exact cmpi_slt_zero_of_nonneg _ (by rw [toInt_ofNat_row]; omega)
  rw [hc, select_zero, rowCol_apply]

/-- The bin component is the bin word: no bin word is negative, so nothing wraps. -/
theorem binIdx_apply (x : FVec Ideal S4096x16384 .f32) (j : S4096x16384.Idx) :
    binIdx (F := Ideal) x j = Cert.Hist.binWord (x j) := by
  unfold binIdx
  rw [select_apply]
  have hc : cmpi .slt (binArr (F := Ideal) x) (broadcastInDim S4096x16384 ![] bcast_S_S4096x16384 (constantI S_ 32 0#32)) j = 0#1 := by
    show IntOp.cmpi .slt (binArr (F := Ideal) x j) 0#32 = 0#1
    rw [binArr_apply]
    exact cmpi_slt_zero_of_nonneg _ (Cert.Hist.binWord_range _).1
  rw [hc, select_zero, binArr_apply]

/-- Component 0 of sample (r, c)'s scatter index is its row number. -/
theorem scatIdx_row (x : FVec Ideal S4096x16384 .f32) (r : Fin 4096) (c : Fin 16384) :
    scatIdx (F := Ideal) x (ix3 r c (0 : Fin 2)) = BitVec.ofNat 32 r.val := by
  unfold scatIdx
  rw [concatenate_pair_apply_left (t := S4096x16384x2) (s₁ := S4096x16384x1) (s₂ := S4096x16384x1) 2 _ _
    concatenates_S4096x16384x1_S4096x16384x1_S4096x16384x2_d2
    (ix3 r c (0 : Fin 2)) rfl (ix3 r c (0 : Fin 1))
    (fun b => match b with | ⟨0, _⟩ => rfl | ⟨1, _⟩ => rfl | ⟨2, _⟩ => rfl)]
  rw [broadcastInDim_apply ![0, 1] bcast_S4096x16384_S4096x16384x1_0_1 _ (ix3 r c (0 : Fin 1)) (ix2 r c)
    (fun a => match a with | ⟨0, _⟩ => rfl | ⟨1, _⟩ => rfl)]
  rw [broadcastInDim_apply ![0, 1] bcast_S4096x1_S4096x16384_0_1 _ (ix2 r c) (ix2 r (0 : Fin 1))
    (fun a => match a with | ⟨0, _⟩ => rfl | ⟨1, _⟩ => rfl)]
  exact rowIdx_apply r

/-- Component 1 of sample (r, c)'s scatter index is its bin word. -/
theorem scatIdx_bin (x : FVec Ideal S4096x16384 .f32) (r : Fin 4096) (c : Fin 16384) :
    scatIdx (F := Ideal) x (ix3 r c (1 : Fin 2)) = Cert.Hist.binWord (x (ix2 r c)) := by
  unfold scatIdx
  rw [concatenate_pair_apply_right (t := S4096x16384x2) (s₁ := S4096x16384x1) (s₂ := S4096x16384x1) 2 _ _
    concatenates_S4096x16384x1_S4096x16384x1_S4096x16384x2_d2
    (ix3 r c (1 : Fin 2)) rfl rfl (ix3 r c (0 : Fin 1))
    (fun b => match b with | ⟨0, _⟩ => fun _ => rfl | ⟨1, _⟩ => fun _ => rfl | ⟨2, _⟩ => fun h => absurd rfl h)
    rfl]
  rw [broadcastInDim_apply ![0, 1] bcast_S4096x16384_S4096x16384x1_0_1 _ (ix3 r c (0 : Fin 1)) (ix2 r c)
    (fun a => match a with | ⟨0, _⟩ => rfl | ⟨1, _⟩ => rfl)]
  exact binIdx_apply x (ix2 r c)

end Cert.ReferenceIdeal.Hand

end
-- ==== Proof.ScatterSum.lean ====
/-
  A scatter-add of ones into a zero [4096, 30] array, its indices the pairs (row of the sample, a word of the sample):
  entry (r, b) ends at the number of samples of row r whose word is b. An update lands on (r, b) exactly when its row
  component reads r and its word reads b as signed integers; since b < 30 the word then IS b.
-/
import proofs.«145623_j81965155877403_1_alg».proof.ReferenceIdeal
import proofs.«145623_j81965155877403_1_alg».proof.Proof.Gen.ReferenceIdeal
import Idealize.ShloMosaic.PureOps.Ideal
import Idealize.ShloMosaic.Lib.ValueIdx

noncomputable section

namespace Cert.ReferenceIdeal.Hand

open Idealize.ShloMosaic Idealize.ShloMosaic.ValueIdx Cert.ReferenceIdeal Cert.ReferenceIdeal.Facts₀

private abbrev sd := scatter_S4096x30_S4096x16384x2_S4096x16384_n_01_01_2

/-- Both operand axes are inserted, so the window coordinate is 0 on each. -/
private theorem window_eq_zero (j : S4096x16384.Idx) (a : Fin 2) : sd.window j a = 0 := by
  unfold ScatterDims.window
  rw [dif_neg]
  revert a; decide

/-- Component 0 of update (r', c)'s index vector sits at (r', c, 0). -/
private theorem siIdx_zero (j : S4096x16384.Idx) (h : 0 < sd.scatterDimsToOperandDims.length) :
    sd.siIdx j ⟨0, h⟩ = ix3 (j 0) (j 1) (0 : Fin 2) := by
  funext b
  match b with
  | ⟨0, _⟩ => rfl
  | ⟨1, _⟩ => rfl
  | ⟨2, _⟩ => rfl

/-- Component 1 of update (r', c)'s index vector sits at (r', c, 1). -/
private theorem siIdx_one (j : S4096x16384.Idx) (h : 1 < sd.scatterDimsToOperandDims.length) :
    sd.siIdx j ⟨1, h⟩ = ix3 (j 0) (j 1) (1 : Fin 2) := by
  funext b
  match b with
  | ⟨0, _⟩ => rfl
  | ⟨1, _⟩ => rfl
  | ⟨2, _⟩ => rfl

private theorem start_zero (j : S4096x16384.Idx) (idx : IVec S4096x16384x2 32) :
    sd.start j idx (0 : Fin 2) = (idx (ix3 (j 0) (j 1) (0 : Fin 2))).toInt := by
  unfold ScatterDims.start
  rw [dif_pos (by decide)]
  exact congrArg (fun t => (idx t).toInt) (siIdx_zero j _)

private theorem start_one (j : S4096x16384.Idx) (idx : IVec S4096x16384x2 32) :
    sd.start j idx (1 : Fin 2) = (idx (ix3 (j 0) (j 1) (1 : Fin 2))).toInt := by
  unfold ScatterDims.start
  rw [dif_pos (by decide)]
  exact congrArg (fun t => (idx t).toInt) (siIdx_one j _)

/-- A natural number below 2^31 read back signed from its 32-bit word is itself. -/
private theorem toInt_ofNat_of_lt (n : Nat) (hn : n < 2 ^ 31) : (BitVec.ofNat 32 n).toInt = (n : Int) := by
  rw [BitVec.toInt_eq_toNat_cond, BitVec.toNat_ofNat, Nat.mod_eq_of_lt (by omega), if_pos (by omega)]

/-- An update lands on operand index i exactly when its two index components, read signed, are i's coordinates. -/
private theorem resultIdx?_eq_some_iff (idx : IVec S4096x16384x2 32) (j : S4096x16384.Idx) (i : S4096x30.Idx) :
    sd.resultIdx? j idx = some i ↔
      (idx (ix3 (j 0) (j 1) (0 : Fin 2))).toInt = ((i 0).val : Int) ∧
      (idx (ix3 (j 0) (j 1) (1 : Fin 2))).toInt = ((i 1).val : Int) := by
  have e0 : sd.start j idx (0 : Fin 2) + (sd.window j (0 : Fin 2) : Int)
      = (idx (ix3 (j 0) (j 1) (0 : Fin 2))).toInt := by
    rw [start_zero, window_eq_zero]; simp
  have e1 : sd.start j idx (1 : Fin 2) + (sd.window j (1 : Fin 2) : Int)
      = (idx (ix3 (j 0) (j 1) (1 : Fin 2))).toInt := by
    rw [start_one, window_eq_zero]; simp
  have hi0 : (i 0).val < 4096 := (i 0).isLt
  have hi1 : (i 1).val < 30 := (i 1).isLt
  unfold ScatterDims.resultIdx?
  split
  · rename_i h
    rw [Option.some.injEq]
    have h0 := h (0 : Fin 2)
    have h1 := h (1 : Fin 2)
    rw [e0] at h0
    rw [e1] at h1
    constructor
    · intro hf
      have g0 := congrArg (fun f => ((f (0 : Fin 2)).val : Int)) hf
      have g1 := congrArg (fun f => ((f (1 : Fin 2)).val : Int)) hf
      simp only [e0, e1] at g0 g1
      constructor <;> omega
    · rintro ⟨g0, g1⟩
      funext a
      apply Fin.ext
      match a with
      | ⟨0, _⟩ => show (sd.start j idx (0 : Fin 2) + (sd.window j (0 : Fin 2) : Int)).toNat = (i 0).val
                  rw [e0, g0]; simp
      | ⟨1, _⟩ => show (sd.start j idx (1 : Fin 2) + (sd.window j (1 : Fin 2) : Int)).toNat = (i 1).val
                  rw [e1, g1]; simp
  · rename_i h
    constructor
    · intro hf; cases hf
    · rintro ⟨g0, g1⟩
      exfalso; apply h
      intro a
      match a with
      | ⟨0, _⟩ => show 0 ≤ sd.start j idx (0 : Fin 2) + (sd.window j (0 : Fin 2) : Int) ∧
                    sd.start j idx (0 : Fin 2) + (sd.window j (0 : Fin 2) : Int) < (4096 : Nat)
                  rw [e0, g0]; omega
      | ⟨1, _⟩ => show 0 ≤ sd.start j idx (1 : Fin 2) + (sd.window j (1 : Fin 2) : Int) ∧
                    sd.start j idx (1 : Fin 2) + (sd.window j (1 : Fin 2) : Int) < (30 : Nat)
                  rw [e1, g1]; omega

/-- Ones scattered by (row, word) pairs into zeros count, at (r, b), the samples of row r whose word is b. -/
theorem scatterAdd_ones_apply (idx : IVec S4096x16384x2 32) (w : S4096x16384.Idx → BitVec 32)
    (h0 : ∀ (r : Fin 4096) (c : Fin 16384), idx (ix3 r c (0 : Fin 2)) = BitVec.ofNat 32 r.val)
    (h1 : ∀ (r : Fin 4096) (c : Fin 16384), idx (ix3 r c (1 : Fin 2)) = w (ix2 r c))
    (zero one : EReal) (hz : zero = 0) (ho : one = 1) (r : Fin 4096) (b : Fin 30) :
    Ideal.hostScatterAdd scatter_S4096x30_S4096x16384x2_S4096x16384_n_01_01_2
        (fun _ : S4096x30.Idx => zero) idx (fun _ : S4096x16384.Idx => one) (ix2 r b)
      = ∑ c : Fin 16384, if w (ix2 r c) = BitVec.ofNat 32 b.val then (1 : EReal) else 0 := by
  subst hz ho
  -- when update (r', c) lands on (r, b)
  have key : ∀ (r' : Fin 4096) (c : Fin 16384),
      sd.resultIdx? (ix2 r' c) idx = some (ix2 r b) ↔ r' = r ∧ w (ix2 r' c) = BitVec.ofNat 32 b.val := by
    intro r' c
    rw [resultIdx?_eq_some_iff]
    show (idx (ix3 r' c (0 : Fin 2))).toInt = (r.val : Int) ∧ (idx (ix3 r' c (1 : Fin 2))).toInt = (b.val : Int) ↔ _
    rw [h0, h1, toInt_ofNat_of_lt r'.val (by have := r'.isLt; omega)]
    constructor
    · rintro ⟨g0, g1⟩
      refine ⟨Fin.ext (by omega), BitVec.eq_of_toInt_eq ?_⟩
      rw [g1, toInt_ofNat_of_lt b.val (by have := b.isLt; omega)]
    · rintro ⟨rfl, g1⟩
      refine ⟨rfl, ?_⟩
      rw [g1, toInt_ofNat_of_lt b.val (by have := b.isLt; omega)]
  unfold Ideal.hostScatterAdd
  rw [zero_add, Finset.sum_filter, sum_idx2, Finset.sum_eq_single r]
  · refine Finset.sum_congr rfl (fun c _ => ?_)
    refine if_congr ?_ rfl rfl
    rw [key]
    exact ⟨fun h => h.2, fun h => ⟨rfl, h⟩⟩
  · intro r' _ hne
    refine Finset.sum_eq_zero (fun c _ => ?_)
    rw [if_neg]
    rw [key]
    exact fun h => hne h.1
  · intro h; exact absurd (Finset.mem_univ r) h

end Cert.ReferenceIdeal.Hand

end
-- ==== Proof.RefValue.lean ====
/-
  The reference's scatter-sum is the histogram: every sample adds a one at (its row, its bin word), so entry (r, b)
  ends at the number of samples of row r whose bin word is b.
-/
import proofs.«145623_j81965155877403_1_alg».proof.Proof.RefIdx
import proofs.«145623_j81965155877403_1_alg».proof.Proof.ScatterSum

noncomputable section

namespace Cert.ReferenceIdeal.Hand

open Idealize.ShloMosaic Idealize.ShloMosaic.ValueIdx Cert.ReferenceIdeal Cert.ReferenceIdeal.Facts₀

/-- The reference's histogram in natural bin order is the specification's. -/
theorem scat_eq_hist (x : FVec Ideal S4096x16384 .f32) : scat (F := Ideal) x = Cert.Hist.hist x := by
  funext i
  obtain ⟨r, b, rfl⟩ : ∃ (r : Fin 4096) (b : Fin 30), i = ix2 r b := ⟨i 0, i 1, eq_ix2 i⟩
  show Ideal.hostScatterAdd scatter_S4096x30_S4096x16384x2_S4096x16384_n_01_01_2
      (fun _ : S4096x30.Idx => Ideal.ofBits .f32 0x00000000#32) (scatIdx (F := Ideal) x)
      (fun _ : S4096x16384.Idx => Ideal.ofBits .f32 0x3F800000#32) (ix2 r b) = _
  rw [scatterAdd_ones_apply (scatIdx (F := Ideal) x) (fun j => Cert.Hist.binWord (x j)) (scatIdx_row x) (scatIdx_bin x)
    _ _ Cert.Hist.ofBits_0 Cert.Hist.ofBits_1 r b]
  rfl

end Cert.ReferenceIdeal.Hand

end
-- ==== Proof.lean ====
/-
  The certificate of a row-wise histogram kernel against its reference.

  Both programs send every sample x of a [4096, 16384] array to a bin word — floor((x + 6) / w) clamped into
  [-1, 28], as an integer, plus one, so a word in [0, 29] — and produce, for every row r and bin b, the number of
  samples of row r whose bin word is b, with the thirty columns permuted by a fixed table at the end.

  The kernel walks the array in 8 x 8 tiles of [512, 2048]: for each tile it compares the bin words with each of the
  thirty bins, sums the matches along the tile's columns, and adds the resulting [512, 30] block to an accumulator
  that is reset at the first tile of a row block and written out after the last. The reference adds a one into a zero
  [4096, 30] array at the index (row, bin word) of every sample. Over the extended reals both are the same sum of zeros
  and ones: the kernel's eight partial sums over 2048 columns each make the sum over the row's 16384 columns, and an
  update of the reference lands on (r, b) exactly when its sample is in row r and has bin word b (no index wraps: the
  row number and the bin word are never negative). The clamp makes the bin word's range hold for every input, so
  the equality needs nothing of the inputs.

  The frames of the two kernel programs are the generated ones; the reference's frame is its run with the result
  dropped; the idealization rewrote nothing.
-/
import proofs.«145623_j81965155877403_1_alg».proof.Defs
import proofs.«145623_j81965155877403_1_alg».proof.Proof.Gen.Kernel
import proofs.«145623_j81965155877403_1_alg».proof.Proof.Gen.Kernel.Skeleton
import proofs.«145623_j81965155877403_1_alg».proof.Proof.Gen.Kernel.Launch
import proofs.«145623_j81965155877403_1_alg».proof.Proof.Gen.Kernel.Points
import proofs.«145623_j81965155877403_1_alg».proof.Proof.Gen.Kernel.Frame
import proofs.«145623_j81965155877403_1_alg».proof.Proof.Gen.KernelIdeal
import proofs.«145623_j81965155877403_1_alg».proof.Proof.Gen.KernelIdeal.Skeleton
import proofs.«145623_j81965155877403_1_alg».proof.Proof.Gen.KernelIdeal.Launch
import proofs.«145623_j81965155877403_1_alg».proof.Proof.Gen.KernelIdeal.Points
import proofs.«145623_j81965155877403_1_alg».proof.Proof.Gen.KernelIdeal.Frame
import proofs.«145623_j81965155877403_1_alg».proof.Proof.Gen.ReferenceIdeal
import proofs.«145623_j81965155877403_1_alg».proof.Proof.Gen.Pre_finite_inputs
import proofs.«145623_j81965155877403_1_alg».proof.Proof.KernelRun
import proofs.«145623_j81965155877403_1_alg».proof.Proof.RefRun
import proofs.«145623_j81965155877403_1_alg».proof.Proof.RefValue
import Idealize.ShloMosaic.Adequacy
import Idealize.ShloMosaic.Init

noncomputable section

namespace Cert.Proof

open Idealize.ShloMosaic Idealize.SL.Sem

/-- The two programs permute the histogram's columns by the same table. -/
theorem reorder_eq (y : FVec Ideal Cert.ReferenceIdeal.S4096x30 .f32) :
    Cert.ReferenceIdeal.Hand.reorder (F := Ideal) y = Cert.KernelIdeal.Hand.reorder y := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the samples both programs end at the permuted histogram of the samples. -/
theorem algebraic : Cert.algebraic_KernelIdeal_ReferenceIdeal := by
  intro m ρ m' ρ' _ hagree
  refine ⟨fun c => Cert.KernelIdeal.Hand.reorder
    (Cert.Hist.hist (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c, Cert.ReferenceIdeal.Hand.scat_eq_hist]
  exact reorder_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
